-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S1x32 : Shape := ⟨2, ![1, 32]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S1x32 : S_.BroadcastsInDim S1x32 (![] : Fin 0 → Fin S1x32.rank)
  reducesTo_S1x32_S_d0_1 : S1x32.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg5 : IVec S800000 32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg5 main_v19
  let main_c_7 : IVec S_ 1 := constantI S_ 1 1#1
  let main_v21 : IVec S_ 1 := (fun x v => Host.reduce IntOp.andi x v reducesTo_S800000_S_d0 h_S_) main_v20 main_c_7
  let main_v22 : IVec S_ 1 := andi main_v18 main_v21
  main_v22

def fn {F : FTy → Type} [FloatOps F] (main_arg0 : FVec F S50000x128 .f32) (main_arg1 : FVec F S800000x32 .f32) (main_arg2 : FVec F S1x32 .f32) (main_arg3 : FVec F S1x32 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg5 main_v13 main_v16
-- ==== Kernel.lean ====
abbrev S50000x128 : Shape := ⟨2, ![50000, 128]⟩
abbrev S800000x32 : Shape := ⟨2, ![800000, 32]⟩
abbrev S1x32 : Shape := ⟨2, ![1, 32]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S50000 : Shape := ⟨1, ![50000]⟩
abbrev S50000x1 : Shape := ⟨2, ![50000, 1]⟩
abbrev S50000x224 : Shape := ⟨2, ![50000, 224]⟩
abbrev S5000x128 : Shape := ⟨2, ![5000, 128]⟩
abbrev S5000x32 : Shape := ⟨2, ![5000, 32]⟩
abbrev S5000x1 : Shape := ⟨2, ![5000, 1]⟩
abbrev S5000x224 : Shape := ⟨2, ![5000, 224]⟩
abbrev S5000x96 : Shape := ⟨2, ![5000, 96]⟩

abbrev nBuf : Space → Nat
  | .hbm => 52
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S1x32, .f32⟩
  | .hbm, ⟨3, _⟩ => ⟨S1x32, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S50000x32, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S50000x32, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S50000, .f32⟩
  | .hbm, ⟨50, _⟩ => ⟨S50000x1, .f32⟩
  | .hbm, ⟨51, _⟩ => ⟨S50000x224, .f32⟩
  | .local _ .vmem, ⟨0, _⟩ => ⟨S5000x128, .f32⟩
  | .local _ .vmem, ⟨1, _⟩ => ⟨S5000x128, .f32⟩
  | .local _ .vmem, ⟨2, _⟩ => ⟨S5000x32, .f32⟩
  | .local _ .vmem, ⟨3, _⟩ => ⟨S5000x32, .f32⟩
  | .local _ .vmem, ⟨4, _⟩ => ⟨S5000x1, .f32⟩
  | .local _ .vmem, ⟨5, _⟩ => ⟨S5000x1, .f32⟩
  | .local _ .vmem, ⟨6, _⟩ => ⟨S1x32, .f32⟩
  | .local _ .vmem, ⟨7, _⟩ => ⟨S1x32, .f32⟩
  | .local _ .vmem, ⟨8, _⟩ => ⟨S5000x224, .f32⟩
  | .local _ .vmem, ⟨9, _⟩ => ⟨S5000x224, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_c_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x32 : S_.BroadcastsInDim S50000x32 (![] : Fin 0 → Fin S50000x32.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  concatenates_S5000x32_S5000x32_S5000x32_S5000x96_d1 : Shape.Concatenates [S5000x32, S5000x32, S5000x32] S5000x96 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x224_S5000x128_0_0 : ∀ a, (![0, 0] : Fin 2 → Nat) a + S5000x128.size a ≤ S5000x224.size a
  inb_S5000x224_S5000x96_0_128 : ∀ a, (![0, 128] : Fin 2 → Nat) a + S5000x96.size a ≤ S5000x224.size a
  h_S5000x96 : 0 < S5000x96.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x32_S800000x1_S800000x32_1_0_0_1_wf : ScatterDims.WF S50000x32 S800000x1 S800000x32 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S50000x32.size a
  hwx0_1 : ∀ i : grid0.Coords, EltTy.bits .f32 = 32 ∨ (Rect.block (s := S50000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x224.size a ≤ S50000x224.size a
  hwx0_5 : ∀ i : grid0.Coords, EltTy.bits .f32 = 32 ∨ (Rect.block (s := S50000x224) S5000x224.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x224.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S1x32 : Shape := ⟨2, ![1, 32]⟩
abbrev S800000 : Shape := ⟨1, ![800000]⟩
abbrev S50000x32 : Shape := ⟨2, ![50000, 32]⟩
abbrev S50000x160 : Shape := ⟨2, ![50000, 160]⟩
abbrev S_ : Shape := ⟨0, ![]⟩
abbrev S800000x1 : Shape := ⟨2, ![800000, 1]⟩
abbrev S800000x160 : Shape := ⟨2, ![800000, 160]⟩
abbrev S50000 : Shape := ⟨1, ![50000]⟩
abbrev S50000x1 : Shape := ⟨2, ![50000, 1]⟩
abbrev S50000x224 : Shape := ⟨2, ![50000, 224]⟩

abbrev nBuf : Space → Nat
  | .hbm => 36
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S1x32, .f32⟩
  | .hbm, ⟨3, _⟩ => ⟨S1x32, .f32⟩
  | .hbm, ⟨4, _⟩ => ⟨S800000, .i32⟩
  | .hbm, ⟨5, _⟩ => ⟨S800000, .i32⟩
  | .hbm, ⟨6, _⟩ => ⟨S50000x32, .f32⟩
  | .hbm, ⟨7, _⟩ => ⟨S50000x160, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x160, .f32⟩
  | .hbm, ⟨17, _⟩ => ⟨S_, .f32⟩
  | .hbm, ⟨18, _⟩ => ⟨S50000x160, .f32⟩
  | .hbm, ⟨19, _⟩ => ⟨S800000x1, .i32⟩
  | .hbm, ⟨20, _⟩ => ⟨S50000x160, .f32⟩
  | .hbm, ⟨21, _⟩ => ⟨S_, .f32⟩
  | .hbm, ⟨22, _⟩ => ⟨S50000x32, .f32⟩
  | .hbm, ⟨23, _⟩ => ⟨S800000x1, .i32⟩
  | .hbm, ⟨24, _⟩ => ⟨S50000x32, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S50000x1, .f32⟩
  | .hbm, ⟨32, _⟩ => ⟨S50000x32, .f32⟩
  | .hbm, ⟨33, _⟩ => ⟨S50000x32, .f32⟩
  | .hbm, ⟨34, _⟩ => ⟨S50000x32, .f32⟩
  | .hbm, ⟨35, _⟩ => ⟨S50000x224, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S1x32_S50000x32_0_1 : S1x32.BroadcastsInDim S50000x32 (![0, 1] : Fin 2 → Fin S50000x32.rank)
  concatenates_S50000x128_S50000x32_S50000x160_d1 : Shape.Concatenates [S50000x128, S50000x32] S50000x160 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x160 : S_.BroadcastsInDim S50000x160 (![] : Fin 0 → Fin S50000x160.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  concatenates_S50000x160_S50000x32_S50000x32_S50000x224_d1 : Shape.Concatenates [S50000x160, S50000x32, S50000x32] S50000x224 1
  gather_S50000x160_S800000x1_S800000x160_1_0_n_n_0_1_1160_wf : GatherDims.WF S50000x160 S800000x1 S800000x160 [1] [0] [] [0] [] 1 ![1, 160]
  scatter_S50000x160_S800000x1_S800000x160_1_0_0_1_wf : ScatterDims.WF S50000x160 S800000x1 S800000x160 [1] [0] [0] 1
  scatter_S50000x32_S800000x1_S800000x32_1_0_0_1_wf : ScatterDims.WF S50000x32 S800000x1 S800000x32 [1] [0] [0] 1
  scatter_S50000_S800000x1_S800000_n_0_0_1_wf : ScatterDims.WF S50000 S800000x1 S800000 [] [0] [0] 1

variable [Facts₀]

def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.PreRead.lean ====
/-
  What the precondition says of the destination words.

  The precondition is a conjunction: every float input finite, and every destination word nonnegative (read
  signed).  Its last conjunct is `jnp.all (dst >= 0)`: an and-reduction over all 800000 comparisons, which is 1 only
  if every comparison is 1, and a signed `dst[e] >= 0` that is 1 says `0 ≤ dst[e]` of the word read signed.
-/
import proofs.«429268_j17592186044974_3_alg».proof.Defs
import proofs.«429268_j17592186044974_3_alg».proof.Proof.Gen.Pre_finite_inputs
import Idealize.ShloMosaic.Lib.ReduceAll
import Idealize.ShloMosaic.Lib.ValueIdx

noncomputable section

namespace Cert.KernelIdeal.PreRead

open Cert.KernelIdeal Idealize.ShloMosaic Idealize.ShloMosaic.TcCoe Idealize.SL.Sem Idealize.ShloMosaic.ValueIdx

/-- The scalar shape has one index. -/
instance : Subsingleton Cert.Pre_finite_inputs.S_.Idx := ⟨fun a b => funext fun d => d.elim0⟩

/-- Under the precondition every destination word is nonnegative. -/
theorem dst_nonneg (m : (ℓ : Loc nD τ sig) → Buf (Elt Ideal) ℓ) (h : Cert.Pre_KernelIdeal m) (c : Dev nD) (e : Fin 800000) :
    0 ≤ ((m ((c.tc : Thread nD τ).loc main_arg5) : IVec S800000 32) (ix1 e)).toInt := by
  have h0 := congrFun (h c) ix0
  unfold Cert.Pre_finite_inputs.fn at h0
  dsimp only at h0
  unfold Cert.Pre_finite_inputs.fn_part1 at h0
  dsimp only at h0
  have h1 := (IntOp.andi_eq_one.mp h0).2
  have h2 := Host.reduce_andi_all _ _ _ _ ix0 h1 (ix1 e)
  exact IntOp.cmpi_sge.mp h2

end Cert.KernelIdeal.PreRead

end
-- ==== Proof.Spec.lean ====
/-
  The fused message-passing aggregate, as one function of five arrays, and the two facts that join its two
  spellings.

  Row n of the [R, 224] result is four pieces side by side: columns 0-127 the aggregated node features of n (array
  a), columns 128-159 the in-degree of n (column array d) times the prompt row p, columns 160-191 the aggregated
  edge features of n (array b), columns 192-223 the in-degree of n times the hetero prompt row hp.  Stated over any
  number of rows R, so that one definition reads a 5000-row block and the whole 50000-row array.

  A block of the result is the result of the blocks: if rows k*5000 .. k*5000 + 4999 of a, b, d are the blocks x0,
  x1, x2, and the two prompt rows are read whole, row r of the blocks' result is row k*5000 + r of the arrays'.

  A constant summed over a finite set is the set's size times the constant, on the extended reals too: the summands
  1 are nonnegative, so the product distributes over their sum whatever p is.

  The graph side.  Edge e goes from the node its source word names (a negative word first gains the axis length
  50000, then the word is clamped into 0 .. 49999) into the node its destination word names; the edges into n are
  those whose destination word, read signed, is n.  Over one node's incoming edges the reference's row is: the sum of
  the source rows of the node features, the prompt row summed once per edge, the sum of the edge features, and the
  edge count times the hetero prompt row.  The fused aggregate of the three per-node sums is that row.
-/
import Idealize.ShloMosaic.PureOps.Ideal
import Idealize.ShloMosaic.Lib.ValueIdx
import Idealize.ShloMosaic.Lib.Affine

noncomputable section

namespace Cert.Fuse

open Idealize.ShloMosaic Idealize.ShloMosaic.ValueIdx

/-- Row n, column j of the fused result. -/
def fuseAt {R : Nat} (a : (⟨2, ![R, 128]⟩ : Shape).Idx → EReal) (b : (⟨2, ![R, 32]⟩ : Shape).Idx → EReal)
    (d : (⟨2, ![R, 1]⟩ : Shape).Idx → EReal) (p hp : (⟨2, ![1, 32]⟩ : Shape).Idx → EReal)
    (n : Fin R) (j : Fin 224) : EReal :=
  if h₁ : j.val < 128 then a (ix2 n (⟨j.val, h₁⟩ : Fin 128))
  else if h₂ : j.val < 160 then d (ix2 n (0 : Fin 1)) * p (ix2 (0 : Fin 1) (⟨j.val - 128, by omega⟩ : Fin 32))
  else if h₃ : j.val < 192 then b (ix2 n (⟨j.val - 160, by omega⟩ : Fin 32))
  else d (ix2 n (0 : Fin 1)) * hp (ix2 (0 : Fin 1) (⟨j.val - 192, by have := j.isLt; omega⟩ : Fin 32))

/-- The fused result as an array. -/
def fuse {R : Nat} (a : (⟨2, ![R, 128]⟩ : Shape).Idx → EReal) (b : (⟨2, ![R, 32]⟩ : Shape).Idx → EReal)
    (d : (⟨2, ![R, 1]⟩ : Shape).Idx → EReal) (p hp : (⟨2, ![1, 32]⟩ : Shape).Idx → EReal) :
    (⟨2, ![R, 224]⟩ : Shape).Idx → EReal :=
  fun i => fuseAt a b d p hp (i 0) (i 1)

theorem fuse_ix2 {R : Nat} (a : (⟨2, ![R, 128]⟩ : Shape).Idx → EReal) (b : (⟨2, ![R, 32]⟩ : Shape).Idx → EReal)
    (d : (⟨2, ![R, 1]⟩ : Shape).Idx → EReal) (p hp : (⟨2, ![1, 32]⟩ : Shape).Idx → EReal) (n : Fin R) (j : Fin 224) :
    fuse a b d p hp (ix2 n j) = fuseAt a b d p hp n j := rfl

/-- Row r of the result of block k of the arrays is row k * 5000 + r of the result of the arrays. -/
theorem fuseAt_block
    (A : (⟨2, ![50000, 128]⟩ : Shape).Idx → EReal) (B : (⟨2, ![50000, 32]⟩ : Shape).Idx → EReal)
    (D : (⟨2, ![50000, 1]⟩ : Shape).Idx → EReal) (p hp : (⟨2, ![1, 32]⟩ : Shape).Idx → EReal)
    (x0 : (⟨2, ![5000, 128]⟩ : Shape).Idx → EReal) (x1 : (⟨2, ![5000, 32]⟩ : Shape).Idx → EReal)
    (x2 : (⟨2, ![5000, 1]⟩ : Shape).Idx → EReal) (x3 x4 : (⟨2, ![1, 32]⟩ : Shape).Idx → EReal)
    (r : Fin 5000) (n : Fin 50000) (j : Fin 224)
    (h0 : ∀ q : Fin 128, x0 (ix2 r q) = A (ix2 n q))
    (h1 : ∀ q : Fin 32, x1 (ix2 r q) = B (ix2 n q))
    (h2 : x2 (ix2 r (0 : Fin 1)) = D (ix2 n (0 : Fin 1)))
    (h3 : ∀ q : Fin 32, x3 (ix2 (0 : Fin 1) q) = p (ix2 (0 : Fin 1) q))
    (h4 : ∀ q : Fin 32, x4 (ix2 (0 : Fin 1) q) = hp (ix2 (0 : Fin 1) q)) :
    fuseAt x0 x1 x2 x3 x4 r j = fuseAt A B D p hp n j := by
  unfold fuseAt
  split_ifs <;> simp only [h0, h1, h2, h3, h4]

/-- The word of 1.0 denotes the real 1. -/
theorem ofBits_one : Ideal.ofBits .f32 0x3F800000#32 = 1 := by
  simp [Ideal.ofBits, Ideal.ieee, -EReal.coe_mul]; norm_num

/-- A count times p is p summed over the counted set, for every extended real p. -/
theorem sum_one_mul {ι : Type} (S : Finset ι) (p : EReal) : (∑ _e ∈ S, (1 : EReal)) * p = ∑ _e ∈ S, p := by
  classical
  induction S using Finset.induction_on with
  | empty => simp
  | insert a s ha ih =>
    rw [Finset.sum_insert ha, Finset.sum_insert ha,
      EReal.right_distrib_of_nonneg zero_le_one (Finset.sum_nonneg fun _ _ => zero_le_one), one_mul, ih]

/-- jnp's reading of an index word into an axis of 50000: a negative word gains the axis length. -/
def wrapWord (w : BitVec 32) : BitVec 32 := Scalar.select (IntOp.cmpi .slt w 0#32) (IntOp.addi w 50000#32) w

/-- A nonnegative word is read as it is. -/
theorem wrapWord_of_nonneg {w : BitVec 32} (h : 0 ≤ w.toInt) : wrapWord w = w := by
  unfold wrapWord
  have hn : ¬ IntOp.cmpi .slt w 0#32 = 1#1 := by
    rw [IntOp.cmpi_slt]
    have : (0#32 : BitVec 32).toInt = 0 := by decide
    omega
  rw [eq_zero_of_ne_one hn, select_zero]

/-- The node edge e comes from: its source word wrapped, read signed and clamped into the node range. -/
def srcRow (src : IVec (⟨1, ![800000]⟩ : Shape) 32) (e : Fin 800000) : Fin 50000 :=
  ⟨min (wrapWord (src (ix1 e))).toInt.toNat (50000 - 1), by omega⟩

/-- The edges into node n: those whose destination word, read signed, is n.  (Stated for any number of nodes and of
    edges; the programs have 50000 and 800000.) -/
def edgesInto {N E : Nat} (dst : IVec (⟨1, ![E]⟩ : Shape) 32) (n : Fin N) : Finset (Fin E) :=
  Finset.univ.filter fun e => (dst (ix1 e)).toInt = (n.val : ℤ)

/-- Column j of the reference's row of a node with incoming edges S from the nodes `row e`. -/
def refAt (nf : (⟨2, ![50000, 128]⟩ : Shape).Idx → EReal) (ef : (⟨2, ![800000, 32]⟩ : Shape).Idx → EReal)
    (p hp : (⟨2, ![1, 32]⟩ : Shape).Idx → EReal) (S : Finset (Fin 800000)) (row : Fin 800000 → Fin 50000)
    (j : Fin 224) : EReal :=
  if h₁ : j.val < 128 then ∑ e ∈ S, nf (ix2 (row e) (⟨j.val, h₁⟩ : Fin 128))
  else if h₂ : j.val < 160 then ∑ _e ∈ S, p (ix2 (0 : Fin 1) (⟨j.val - 128, by omega⟩ : Fin 32))
  else if h₃ : j.val < 192 then ∑ e ∈ S, ef (ix2 e (⟨j.val - 160, by omega⟩ : Fin 32))
  else (∑ _e ∈ S, (1 : EReal)) * hp (ix2 (0 : Fin 1) (⟨j.val - 192, by have := j.isLt; omega⟩ : Fin 32))

/-- THE LAW THAT JOINS THE TWO SIDES: where the three aggregated arrays hold node n's sums over its incoming edges,
    the fused row of n is the reference's row of n; the one step that is not a restatement is the prompt block,
    edge count times prompt against prompt summed per edge. -/
theorem fuseAt_eq_refAt (A : (⟨2, ![50000, 128]⟩ : Shape).Idx → EReal) (B : (⟨2, ![50000, 32]⟩ : Shape).Idx → EReal)
    (D : (⟨2, ![50000, 1]⟩ : Shape).Idx → EReal) (p hp : (⟨2, ![1, 32]⟩ : Shape).Idx → EReal)
    (nf : (⟨2, ![50000, 128]⟩ : Shape).Idx → EReal) (ef : (⟨2, ![800000, 32]⟩ : Shape).Idx → EReal)
    (S : Finset (Fin 800000)) (row : Fin 800000 → Fin 50000) (n : Fin 50000) (j : Fin 224)
    (hA : ∀ q : Fin 128, A (ix2 n q) = ∑ e ∈ S, nf (ix2 (row e) q))
    (hB : ∀ q : Fin 32, B (ix2 n q) = ∑ e ∈ S, ef (ix2 e q))
    (hD : D (ix2 n (0 : Fin 1)) = ∑ _e ∈ S, (1 : EReal)) :
    fuseAt A B D p hp n j = refAt nf ef p hp S row j := by
  unfold fuseAt refAt
  split_ifs <;> simp only [hA, hB, hD, sum_one_mul]

end Cert.Fuse

end
-- ==== Proof.KernelBody.lean ====
/-
  What one grid point of the fuse kernel writes, index by index.

  The body stores the [5000, 128] block of aggregated node features into columns 0-127 of its [5000, 224] output
  block, then one [5000, 96] value into columns 128-223: the in-degree column times the prompt row, the block of
  aggregated edge features, the in-degree column times the hetero prompt row, side by side.  The two stores land on
  disjoint column ranges, so the block reads back the first store's payload left of column 128 and the second's from
  there on; the second payload, read at a column, is one of its three parts.  Together: row r, column j of the block
  written is row r, column j of the fused aggregate of the five input blocks.
-/
import proofs.«429268_j17592186044974_3_alg».proof.Proof.Gen.KernelIdeal.Frame
import proofs.«429268_j17592186044974_3_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.SL.Sem Idealize.ShloMosaic.Tactic
open Idealize.ShloMosaic.ValueIdx Cert.Fuse

theorem hz : (![0, 0] : Fin 2 → Nat) = fun _ => 0 := funext fun a => by fin_cases a <;> rfl

/-- The block the body leaves is the overlay of its two stores, each payload a function of the whole input blocks. -/
theorem out_eq (c : Dev nD) (i : grid0.Coords) (arg1 : Memref sig .tc .vmem S5000x128 .f32) (harg1 : arg1.IsWhole)
    (arg2 : Memref sig .tc .vmem S5000x32 .f32) (harg2 : arg2.IsWhole) (arg3 : Memref sig .tc .vmem S5000x1 .f32) (harg3 : arg3.IsWhole)
    (arg4 : Memref sig .tc .vmem S1x32 .f32) (harg4 : arg4.IsWhole) (arg5 : Memref sig .tc .vmem S1x32 .f32) (harg5 : arg5.IsWhole)
    (arg6 : Memref sig .tc .vmem S5000x224 .f32) (harg6 : arg6.IsWhole)
    (x0 : Vec Ideal S5000x128 .f32) (x1 : Vec Ideal S5000x32 .f32) (x2 : Vec Ideal S5000x1 .f32) (x3 : Vec Ideal S1x32 .f32) (x4 : Vec Ideal S1x32 .f32) :
    out0_A_5 (F := Ideal) c i arg1 harg1 arg2 harg2 arg3 harg3 arg4 harg4 arg5 harg5 arg6 harg6 x0 x1 x2 x3 x4
      = View.canon [(⟨Rect.unit (s := S5000x224) ![0, 128] S5000x96.size inb_S5000x224_S5000x96_0_128, k0_pay1 (F := Ideal) x2 x3 x4 x1⟩ : View.Piece (Elt Ideal) S5000x224 .f32),
          ⟨Rect.unit (s := S5000x224) ![0, 0] S5000x128.size inb_S5000x224_S5000x128_0_0, k0_pay2 (F := Ideal) x0⟩] := by
  unfold out0_A_5
  rw [View.read_writes_junk_eq_canon]
  unfold kernelRun0_A
  dsimp only
  sl_unfold_words
  simp only [View.readAt_eq_ld, harg1.read_unread, harg2.read_unread, harg3.read_unread, harg4.read_unread, harg5.read_unread,
    View.ld_unit_zero (S := S5000x128) hz, View.ld_unit_zero (S := S5000x32) hz, View.ld_unit_zero (S := S5000x1) hz,
    View.ld_unit_zero (S := S1x32) hz]

/-- Left of column 128 the overlay reads the store into columns 0-127. -/
theorem canon_lo {α : EltTy → Type} [∀ e, Nonempty (α e)] (w1 : S5000x96.Idx → α .f32) (w0 : S5000x128.Idx → α .f32)
    (inb1 : ∀ a, (![0, 128] : Fin 2 → Nat) a + S5000x96.size a ≤ S5000x224.size a)
    (inb0 : ∀ a, (![0, 0] : Fin 2 → Nat) a + S5000x128.size a ≤ S5000x224.size a)
    (r : Fin 5000) (j : Fin 224) (q : Fin 128) (hj : j.val = q.val) :
    View.canon [(⟨Rect.unit (s := S5000x224) ![0, 128] S5000x96.size inb1, w1⟩ : View.Piece α S5000x224 .f32),
        ⟨Rect.unit (s := S5000x224) ![0, 0] S5000x128.size inb0, w0⟩] (ix2 r j) = w0 (ix2 r q) := by
  rw [View.canon_cons_of_not_mem _ _ (by
    intro h
    have h' : (ix2 r j : S5000x224.Idx) ∈ (Rect.unit (s := S5000x224) ![0, 128] S5000x96.size inb1).set := h
    have h1 := ((Rect.mem_set_unit (inb := inb1)).mp h') (1 : Fin 2)
    have h2 : (128 : Nat) ≤ j.val := h1.1
    have := q.isLt
    omega)]
  have e : (ix2 r j : S5000x224.Idx) = (Rect.unit (s := S5000x224) ![0, 0] S5000x128.size inb0).emb (ix2 r q) := by
    funext a; apply Fin.ext
    match a with
    | ⟨0, _⟩ => show r.val = 0 + 1 * r.val; omega
    | ⟨1, _⟩ => show j.val = 0 + 1 * q.val; omega
  rw [e, View.canon_cons_emb]

/-- From column 128 on it reads the store into columns 128-223. -/
theorem canon_hi {α : EltTy → Type} [∀ e, Nonempty (α e)] (w1 : S5000x96.Idx → α .f32) (w0 : S5000x128.Idx → α .f32)
    (inb1 : ∀ a, (![0, 128] : Fin 2 → Nat) a + S5000x96.size a ≤ S5000x224.size a)
    (inb0 : ∀ a, (![0, 0] : Fin 2 → Nat) a + S5000x128.size a ≤ S5000x224.size a)
    (r : Fin 5000) (j : Fin 224) (q : Fin 96) (hj : j.val = 128 + q.val) :
    View.canon [(⟨Rect.unit (s := S5000x224) ![0, 128] S5000x96.size inb1, w1⟩ : View.Piece α S5000x224 .f32),
        ⟨Rect.unit (s := S5000x224) ![0, 0] S5000x128.size inb0, w0⟩] (ix2 r j) = w1 (ix2 r q) := by
  have e : (ix2 r j : S5000x224.Idx) = (Rect.unit (s := S5000x224) ![0, 128] S5000x96.size inb1).emb (ix2 r q) := by
    funext a; apply Fin.ext
    match a with
    | ⟨0, _⟩ => show r.val = 0 + 1 * r.val; omega
    | ⟨1, _⟩ => show j.val = 128 + 1 * q.val; omega
  rw [e, View.canon_cons_emb]

/-- A column broadcast along the lanes reads the column's entry of the row. -/
theorem bcast_col {α : Type} (x : S5000x1.Idx → α) (h : S5000x1.Broadcasts S5000x32) (r : Fin 5000) (q : Fin 32) :
    broadcastTo S5000x32 x h (ix2 r q) = x (ix2 r (0 : Fin 1)) :=
  broadcastTo_apply x h (ix2 r q) (ix2 r (0 : Fin 1)) (fun a => match a with
    | ⟨0, _⟩ => by show r.val = if (5000 : Nat) = 1 then 0 else r.val; rw [if_neg (by decide)]
    | ⟨1, _⟩ => by show 0 = if (1 : Nat) = 1 then 0 else q.val; rw [if_pos rfl])

/-- A row broadcast down the sublanes reads the row's entry of the lane. -/
theorem bcast_row {α : Type} (x : S1x32.Idx → α) (h : S1x32.Broadcasts S5000x32) (r : Fin 5000) (q : Fin 32) :
    broadcastTo S5000x32 x h (ix2 r q) = x (ix2 (0 : Fin 1) q) :=
  broadcastTo_apply x h (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])

/-- The 96-lane value read at a lane: degree times prompt, the edge aggregate, degree times hetero prompt. -/
theorem pay1_apply (x2 : Vec Ideal S5000x1 .f32) (x3 x4 : Vec Ideal S1x32 .f32) (x1 : Vec Ideal S5000x32 .f32) (r : Fin 5000) (q : Fin 96) :
    k0_pay1 (F := Ideal) x2 x3 x4 x1 (ix2 r q)
      = if h₁ : q.val < 32 then x2 (ix2 r (0 : Fin 1)) * x3 (ix2 (0 : Fin 1) (⟨q.val, h₁⟩ : Fin 32))
        else if h₂ : q.val < 64 then x1 (ix2 r (⟨q.val - 32, by omega⟩ : Fin 32))
        else x2 (ix2 r (0 : Fin 1)) * x4 (ix2 (0 : Fin 1) (⟨q.val - 64, by have := q.isLt; omega⟩ : Fin 32)) := by
  unfold k0_pay1
  simp only [shapeCast_self]
  split_ifs with h₁ h₂
  · refine (concatenate_apply_piece (1 : Fin 2) _ _ (ix2 r q) 0 (by show (0 : Nat) < 3; decide) S5000x32 _ rfl rfl 0 rfl
      (ix2 r (⟨q.val, h₁⟩ : Fin 32)) (fun b hb => match b with | ⟨0, _⟩ => rfl | ⟨1, _⟩ => absurd rfl hb)
      (by show 0 + q.val = q.val; omega)).trans ?_
    exact congrArg₂ (· * ·) (bcast_col _ _ r _) (bcast_row _ _ r _)
  · refine (concatenate_apply_piece (1 : Fin 2) _ _ (ix2 r q) 1 (by show (1 : Nat) < 3; decide) S5000x32 _ rfl rfl 32 rfl
      (ix2 r (⟨q.val - 32, by omega⟩ : Fin 32)) (fun b hb => match b with | ⟨0, _⟩ => rfl | ⟨1, _⟩ => absurd rfl hb)
      (by show 32 + (q.val - 32) = q.val; omega)).trans ?_
    rfl
  · refine (concatenate_apply_piece (1 : Fin 2) _ _ (ix2 r q) 2 (by show (2 : Nat) < 3; decide) S5000x32 _ rfl rfl 64 rfl
      (ix2 r (⟨q.val - 64, by have := q.isLt; omega⟩ : Fin 32)) (fun b hb => match b with | ⟨0, _⟩ => rfl | ⟨1, _⟩ => absurd rfl hb)
      (by show 64 + (q.val - 64) = q.val; omega)).trans ?_
    exact congrArg₂ (· * ·) (bcast_col _ _ r _) (bcast_row _ _ r _)

/-- ROW r, COLUMN j OF THE BLOCK A POINT WRITES is the fused aggregate of its five input blocks there. -/
theorem out_apply (c : Dev nD) (i : grid0.Coords) (arg1 : Memref sig .tc .vmem S5000x128 .f32) (harg1 : arg1.IsWhole)
    (arg2 : Memref sig .tc .vmem S5000x32 .f32) (harg2 : arg2.IsWhole) (arg3 : Memref sig .tc .vmem S5000x1 .f32) (harg3 : arg3.IsWhole)
    (arg4 : Memref sig .tc .vmem S1x32 .f32) (harg4 : arg4.IsWhole) (arg5 : Memref sig .tc .vmem S1x32 .f32) (harg5 : arg5.IsWhole)
    (arg6 : Memref sig .tc .vmem S5000x224 .f32) (harg6 : arg6.IsWhole)
    (x0 : Vec Ideal S5000x128 .f32) (x1 : Vec Ideal S5000x32 .f32) (x2 : Vec Ideal S5000x1 .f32) (x3 : Vec Ideal S1x32 .f32) (x4 : Vec Ideal S1x32 .f32)
    (r : Fin 5000) (j : Fin 224) :
    out0_A_5 (F := Ideal) c i arg1 harg1 arg2 harg2 arg3 harg3 arg4 harg4 arg5 harg5 arg6 harg6 x0 x1 x2 x3 x4 (ix2 r j)
      = fuseAt x0 x1 x2 x3 x4 r j := by
  rw [out_eq]
  unfold fuseAt
  by_cases h₁ : j.val < 128
  · rw [dif_pos h₁, canon_lo _ _ _ _ r j ⟨j.val, h₁⟩ rfl]
    unfold k0_pay2
    rw [shapeCast_self]
  · have hj := j.isLt
    rw [dif_neg h₁, canon_hi _ _ _ _ r j ⟨j.val - 128, by omega⟩ (by show j.val = 128 + (j.val - 128); omega), pay1_apply]
    by_cases h₂ : j.val < 160
    · rw [dif_pos (show j.val - 128 < 32 by omega), dif_pos h₂]
    · rw [dif_neg (show ¬ j.val - 128 < 32 by omega), dif_neg h₂]
      by_cases h₃ : j.val < 192
      · rw [dif_pos (show j.val - 128 < 64 by omega), dif_pos h₃]
        exact congrArg x1 (congrArg (ix2 r) (Fin.ext (by show j.val - 128 - 32 = j.val - 160; omega)))
      · rw [dif_neg (show ¬ j.val - 128 < 64 by omega), dif_neg h₃]
        exact congrArg (fun z => x2 (ix2 r (0 : Fin 1)) * x4 (ix2 (0 : Fin 1) z)) (Fin.ext (by show j.val - 128 - 64 = j.val - 192; omega))

end Cert.KernelIdeal.Body

end
-- ==== Proof.KernelFinal.lean ====
/-
  The array the fuse kernel's region leaves, as one function of the five arrays it finds.

  Grid point t reads rows 5000 t .. 5000 t + 4999 of the aggregated node features, the aggregated edge features and
  the in-degree column, and both prompt rows whole, and writes rows 5000 t .. 5000 t + 4999 of the result.  What it
  writes is the fused aggregate of its blocks, and a block of the fused aggregate is the fused aggregate of the
  blocks: so each point writes its block of ONE array, the fused aggregate of the whole arrays.  The ten blocks of
  5000 rows cover the 50000 rows (row n is in block n / 5000), so the result array ends holding that array.
-/
import proofs.«429268_j17592186044974_3_alg».proof.Proof.Gen.KernelIdeal.Value
import proofs.«429268_j17592186044974_3_alg».proof.Proof.KernelBody

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Fuse

variable (m : (ℓ : Loc nD τ sig) → Buf (Elt Ideal) ℓ) (ρ : Dev nD → PrngReg)

/-- The five arrays as the region finds them (the arrays of input windows 0 to 4), at their literal types. -/
abbrev aggNf (c : Dev nD) : S50000x128.Idx → EReal := V m c (Pipeline.arrRef spec0 0)
abbrev aggEf (c : Dev nD) : S50000x32.Idx → EReal := V m c (Pipeline.arrRef spec0 1)
abbrev degCol (c : Dev nD) : S50000x1.Idx → EReal := V m c (Pipeline.arrRef spec0 2)
abbrev promptRow (c : Dev nD) : S1x32.Idx → EReal := V m c (Pipeline.arrRef spec0 3)
abbrev heteroRow (c : Dev nD) : S1x32.Idx → EReal := V m c (Pipeline.arrRef spec0 4)

/-- The array the region's result is shown to hold. -/
abbrev fused (c : Dev nD) : S50000x224.Idx → EReal :=
  fuse (aggNf m c) (aggEf m c) (degCol m c) (promptRow m c) (heteroRow m c)

/-- The printed index maps over the ten points: the three row-blocked inputs and the output sit at block (t, 0), the
    two prompt rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of block t of a 128-column array of 50000 rows is row 5000 t + r of the array (whatever the array holds). -/
theorem read_blk0 (t : Fin cfg0.N) (X : S50000x128.Idx → EReal) (r : Fin 5000) (q : Fin 128) (n : Fin 50000)
    (hn : n.val = t.val * 5000 + r.val) :
    ((cfg0.win 0).blk t).view.read (Elt Ideal) X (ix2 r q) = X (ix2 n q) := by
  obtain ⟨e00, e01, e10, e11, e20, e21, -⟩ := idx_facts t
  rw [View.read_apply]
  show X (((cfg0.win 0).blk t).view.emb (ix2 r q)) = X (ix2 n q)
  refine congrArg X ?_
  funext a; apply Fin.ext
  match a with
  | ⟨0, _⟩ => show win0_0.index t (0 : Fin 2) * 5000 + 1 * r.val = n.val; rw [e00]; omega
  | ⟨1, _⟩ => show win0_0.index t (1 : Fin 2) * 128 + 1 * q.val = q.val; rw [e01]; omega

/-- The same for a 32-column array. -/
theorem read_blk1 (t : Fin cfg0.N) (X : S50000x32.Idx → EReal) (r : Fin 5000) (q : Fin 32) (n : Fin 50000)
    (hn : n.val = t.val * 5000 + r.val) :
    ((cfg0.win 1).blk t).view.read (Elt Ideal) X (ix2 r q) = X (ix2 n q) := by
  obtain ⟨e00, e01, e10, e11, e20, e21, -⟩ := idx_facts t
  rw [View.read_apply]
  show X (((cfg0.win 1).blk t).view.emb (ix2 r q)) = X (ix2 n q)
  refine congrArg X ?_
  funext a; apply Fin.ext
  match a with
  | ⟨0, _⟩ => show win0_1.index t (0 : Fin 2) * 5000 + 1 * r.val = n.val; rw [e10]; omega
  | ⟨1, _⟩ => show win0_1.index t (1 : Fin 2) * 32 + 1 * q.val = q.val; rw [e11]; omega

/-- The same for a one-column array. -/
theorem read_blk2 (t : Fin cfg0.N) (X : S50000x1.Idx → EReal) (r : Fin 5000) (q : Fin 1) (n : Fin 50000)
    (hn : n.val = t.val * 5000 + r.val) :
    ((cfg0.win 2).blk t).view.read (Elt Ideal) X (ix2 r q) = X (ix2 n q) := by
  obtain ⟨e00, e01, e10, e11, e20, e21, -⟩ := idx_facts t
  rw [View.read_apply]
  show X (((cfg0.win 2).blk t).view.emb (ix2 r q)) = X (ix2 n q)
  refine congrArg X ?_
  funext a; apply Fin.ext
  match a with
  | ⟨0, _⟩ => show win0_2.index t (0 : Fin 2) * 5000 + 1 * r.val = n.val; rw [e20]; omega
  | ⟨1, _⟩ => show win0_2.index t (1 : Fin 2) * 1 + 1 * q.val = q.val; rw [e21]; omega

/-- The prompt row's one block is the row itself. -/
theorem read_blk3 (t : Fin cfg0.N) (X : S1x32.Idx → EReal) (q : Fin 32) :
    ((cfg0.win 3).blk t).view.read (Elt Ideal) X (ix2 (0 : Fin 1) q) = X (ix2 (0 : Fin 1) q) := by
  obtain ⟨-, -, -, -, -, -, e30, e31, e40, e41, -⟩ := idx_facts t
  rw [View.read_apply]
  show X (((cfg0.win 3).blk t).view.emb (ix2 (0 : Fin 1) q)) = X (ix2 (0 : Fin 1) q)
  refine congrArg X ?_
  funext a; apply Fin.ext
  match a with
  | ⟨0, _⟩ => show win0_3.index t (0 : Fin 2) * 1 + 1 * 0 = 0; rw [e30]
  | ⟨1, _⟩ => show win0_3.index t (1 : Fin 2) * 32 + 1 * q.val = q.val; rw [e31]; omega

/-- The hetero prompt row's one block is the row itself. -/
theorem read_blk4 (t : Fin cfg0.N) (X : S1x32.Idx → EReal) (q : Fin 32) :
    ((cfg0.win 4).blk t).view.read (Elt Ideal) X (ix2 (0 : Fin 1) q) = X (ix2 (0 : Fin 1) q) := by
  obtain ⟨-, -, -, -, -, -, e30, e31, e40, e41, -⟩ := idx_facts t
  rw [View.read_apply]
  show X (((cfg0.win 4).blk t).view.emb (ix2 (0 : Fin 1) q)) = X (ix2 (0 : Fin 1) q)
  refine congrArg X ?_
  funext a; apply Fin.ext
  match a with
  | ⟨0, _⟩ => show win0_4.index t (0 : Fin 2) * 1 + 1 * 0 = 0; rw [e40]
  | ⟨1, _⟩ => show win0_4.index t (1 : Fin 2) * 32 + 1 * q.val = q.val; rw [e41]; omega

/-- WHAT POINT t WRITES BACK is block t of the fused aggregate of the arrays the region finds. -/
theorem flushed_eq (c : Dev nD) (t : Fin cfg0.N) :
    (dats m 0 c).flushed 5 t = ((cfg0.win 5).blk t).view.read (Elt Ideal) (fused m c) := by
  rw [Value.flushed5_A]
  obtain ⟨e00, e01, e10, e11, e20, e21, e30, e31, e40, e41, e50, e51⟩ := idx_facts t
  have hN : t.val < 10 := by have h := t.isLt; have e : cfg0.N = 10 := N_0; omega
  have key : ∀ y : S5000x224.Idx,
      out0_A_5 (F := Ideal) c (grid0.coords t) (ms0_0 t) (hs0_0 t) (ms0_1 t) (hs0_1 t) (ms0_2 t) (hs0_2 t) (ms0_3 t) (hs0_3 t)
          (ms0_4 t) (hs0_4 t) (ms0_5 t) (hs0_5 t) (iblk m c 0 t) (iblk m c 1 t) (iblk m c 2 t) (iblk m c 3 t) (iblk m c 4 t) y
        = fused m c (((cfg0.win 5).blk t).view.emb y) := by
    intro y
    obtain ⟨r, j, rfl⟩ : ∃ (r : Fin 5000) (j : Fin 224), y = ix2 r j := ⟨y 0, y 1, eq_ix2 y⟩
    have hr := r.isLt
    have hn : t.val * 5000 + r.val < 50000 := by omega
    refine (Body.out_apply c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) r j).trans ?_
    have he : (((cfg0.win 5).blk t).view.emb (ix2 r j) : S50000x224.Idx) = ix2 (⟨t.val * 5000 + r.val, hn⟩ : Fin 50000) j := by
      funext a; apply Fin.ext
      match a with
      | ⟨0, _⟩ => show win0_5.index t (0 : Fin 2) * 5000 + 1 * r.val = t.val * 5000 + r.val; rw [e50]; omega
      | ⟨1, _⟩ => show win0_5.index t (1 : Fin 2) * 224 + 1 * j.val = j.val; rw [e51]; omega
    rw [he]
    show _ = fuseAt (aggNf m c) (aggEf m c) (degCol m c) (promptRow m c) (heteroRow m c) (⟨t.val * 5000 + r.val, hn⟩ : Fin 50000) j
    exact fuseAt_block (aggNf m c) (aggEf m c) (degCol m c) (promptRow m c) (heteroRow m c)
      (iblk m c 0 t) (iblk m c 1 t) (iblk m c 2 t) (iblk m c 3 t) (iblk m c 4 t) r (⟨t.val * 5000 + r.val, hn⟩ : Fin 50000) j
      (fun q => read_blk0 t (V m c (Pipeline.arrRef spec0 0)) r q _ rfl)
      (fun q => read_blk1 t (V m c (Pipeline.arrRef spec0 1)) r q _ rfl)
      (read_blk2 t (V m c (Pipeline.arrRef spec0 2)) r (0 : Fin 1) _ rfl)
      (fun q => read_blk3 t (V m c (Pipeline.arrRef spec0 3)) q)
      (fun q => read_blk4 t (V m c (Pipeline.arrRef spec0 4)) q)
  funext y
  exact key y

/-- Every row is in the block of the point numbered by its quotient by 5000. -/
theorem cover (i : S50000x224.Idx) :
    ∃ t : Fin cfg0.N, (cfg0.win 5).flush t = true ∧ i ∈ ((cfg0.win 5).blk t).view.set := by
  have h0 : (i 0).val < 50000 := (i 0).isLt
  have h1 : (i 1).val < 224 := (i 1).isLt
  let t : Fin cfg0.N := ⟨(i 0).val / 5000, by rw [show cfg0.N = 10 from N_0]; omega⟩
  obtain ⟨-, -, -, -, -, -, -, -, -, -, e50, e51⟩ := idx_facts t
  have et : t.val = (i 0).val / 5000 := rfl
  refine ⟨t, flush0_5 t, ?_⟩
  show i ∈ ((View.whole main_v33).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; rw [e50, et]; omega
  | ⟨1, _⟩ => show win0_5.index t (1 : Fin 2) * 224 ≤ (i 1).val ∧ (i 1).val < win0_5.index t (1 : Fin 2) * 224 + 224; rw [e51]; omega

/-- THE RESULT ARRAY after the region: the fused aggregate of the five arrays the region finds. -/
theorem final (c : Dev nD) : (dats m 0 c).arrAt 5 cfg0.N = fused m c :=
  (dats m 0 c).arrAt_eq_of_cover 5 (fused m c) (fun t _ => flushed_eq m c t) (cover)

end Cert.KernelIdeal.Final

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.EdgeSums.lean ====
/-
  Gathers and scatter-adds over the edge list, read at an index as sums over a node's incoming edges.

  The destination words are laid out as a column [800000, 1] and used as scatter indices into an array of zeros:
  element (n, c) of the result is the updates' column c summed over the edges into n (the edges whose destination
  word, read signed, is n; a word outside 0 .. 49999 lands nowhere).  Scattering the constant 1 counts those edges.
  The source words, wrapped the way jnp wraps a negative index and laid out as a column, are used as gather
  indices: row e of the result is the row of the table at the source node of e.
-/
import proofs.«429268_j17592186044974_3_alg».proof.Proof.LibRowOps
import proofs.«429268_j17592186044974_3_alg».proof.Proof.Spec
import Idealize.ShloMosaic.Lib.Pipeline.Value
import Idealize.ShloMosaic.PureOps.Ideal.Laws

noncomputable section

namespace Cert.Fuse

open Idealize.ShloMosaic Idealize.ShloMosaic.ValueIdx Idealize.ShloMosaic.RowOps

abbrev S0 : Shape := ⟨0, ![]⟩
abbrev SE : Shape := ⟨1, ![800000]⟩
abbrev SE1 : Shape := ⟨2, ![800000, 1]⟩

/-- The words laid out as a column, read back at edge e (for any number of edges). -/
theorem col_apply {E : Nat} (h : (⟨1, ![E]⟩ : Shape).BroadcastsInDim ⟨2, ![E, 1]⟩ ![0]) (x : IVec (⟨1, ![E]⟩ : Shape) 32) (e : Fin E) :
    broadcastInDim (⟨2, ![E, 1]⟩ : Shape) ![0] h x (ix2 e (0 : Fin 1)) = x (ix1 e) :=
  broadcastInDim_apply _ h x (ix2 e (0 : Fin 1)) (ix1 e) (fun a => match a with
    | ⟨0, _⟩ => by
      show e.val = if E = 1 then 0 else e.val
      split_ifs with h1
      · have := e.isLt; omega
      · rfl)

/-- jnp's wrap of a negative index, word by word. -/
theorem wrap_apply (h0 : S0.BroadcastsInDim SE ![]) (x : IVec SE 32) (e : Fin 800000) :
    select (cmpi .slt x (broadcastInDim SE ![] h0 (constantI S0 32 0#32)))
      (addi x (broadcastInDim SE ![] h0 (constantI S0 32 50000#32))) x (ix1 e) = wrapWord (x (ix1 e)) := rfl

/-- A row scatter-add into zeros by the destination column: element (n, c) is column c of the updates summed over
    the edges into n.  Stated for any numbers of nodes, edges and columns. -/
theorem rowSums_apply {N E C : Nat}
    (wf : ScatterDims.WF ⟨2, ![N, C]⟩ ⟨2, ![E, 1]⟩ ⟨2, ![E, C]⟩ [1] [0] [0] 1)
    (hz : S0.BroadcastsInDim ⟨2, ![N, C]⟩ ![]) (hc : (⟨1, ![E]⟩ : Shape).BroadcastsInDim ⟨2, ![E, 1]⟩ ![0])
    (dst : IVec (⟨1, ![E]⟩ : Shape) 32) (upd : FVec Ideal ⟨2, ![E, C]⟩ .f32) (n : Fin N) (c : Fin C) :
    Host.scatterAdd (F := Ideal) (rowScatter N E C wf)
        (broadcastInDim ⟨2, ![N, C]⟩ ![] hz (constant (F := Ideal) S0 .f32 0x00000000#32))
        (broadcastInDim (⟨2, ![E, 1]⟩ : Shape) ![0] hc dst) upd (ix2 n c)
      = ∑ e ∈ edgesInto dst n, upd (ix2 e c) := by
  show Ideal.hostScatterAdd (rowScatter N E C wf) _ _ upd (ix2 n c) = _
  rw [rowScatterAdd_apply]
  have z : broadcastInDim ⟨2, ![N, C]⟩ ![] hz (constant (F := Ideal) S0 .f32 0x00000000#32) (ix2 n c) = 0 := by
    simp only [broadcastInDim, constant, Ideal.ofBits_def, Ideal.ofBits_zero_f32]
  rw [z, zero_add]
  unfold edgesInto
  refine Finset.sum_congr (Finset.filter_congr fun e _ => ?_) (fun _ _ => rfl)
  rw [col_apply]

/-- A scatter-add of ones into a vector of zeros by the destination column: element n is the number of edges into n. -/
theorem count_apply {N E : Nat}
    (wf : ScatterDims.WF ⟨1, ![N]⟩ ⟨2, ![E, 1]⟩ ⟨1, ![E]⟩ [] [0] [0] 1)
    (hz : S0.BroadcastsInDim ⟨1, ![N]⟩ ![]) (hc : (⟨1, ![E]⟩ : Shape).BroadcastsInDim ⟨2, ![E, 1]⟩ ![0])
    (ho : S0.BroadcastsInDim ⟨1, ![E]⟩ ![]) (dst : IVec (⟨1, ![E]⟩ : Shape) 32) (n : Fin N) :
    Host.scatterAdd (F := Ideal) (vecScatter N E wf)
        (broadcastInDim ⟨1, ![N]⟩ ![] hz (constant (F := Ideal) S0 .f32 0x00000000#32))
        (broadcastInDim (⟨2, ![E, 1]⟩ : Shape) ![0] hc dst)
        (broadcastInDim (⟨1, ![E]⟩ : Shape) ![] ho (constant (F := Ideal) S0 .f32 0x3F800000#32)) (ix1 n)
      = ∑ _e ∈ edgesInto dst n, (1 : EReal) := by
  show Ideal.hostScatterAdd (vecScatter N E wf) _ _ _ (ix1 n) = _
  rw [vecScatterAdd_apply]
  have z : broadcastInDim ⟨1, ![N]⟩ ![] hz (constant (F := Ideal) S0 .f32 0x00000000#32) (ix1 n) = 0 := by
    simp only [broadcastInDim, constant, Ideal.ofBits_def, Ideal.ofBits_zero_f32]
  have o : ∀ e : Fin E, broadcastInDim (⟨1, ![E]⟩ : Shape) ![] ho (constant (F := Ideal) S0 .f32 0x3F800000#32) (ix1 e) = 1 := by
    intro e
    simp only [broadcastInDim, constant, Ideal.ofBits_def, ofBits_one]
  rw [z, zero_add]
  unfold edgesInto
  refine Finset.sum_congr (Finset.filter_congr fun e _ => ?_) (fun e _ => o e)
  rw [col_apply]

/-- A row gather by the wrapped source column: row e is the table's row at the source node of e. -/
theorem srcRows_apply {C : Nat}
    (wf : GatherDims.WF ⟨2, ![50000, C]⟩ ⟨2, ![800000, 1]⟩ ⟨2, ![800000, C]⟩ [1] [0] [] [0] [] 1 ![1, C])
    (hc : SE.BroadcastsInDim SE1 ![0]) (h0 : S0.BroadcastsInDim SE ![])
    (x : (⟨2, ![50000, C]⟩ : Shape).Idx → EReal) (src : IVec SE 32) (e : Fin 800000) (c : Fin C) :
    Host.gather (rowGather 50000 800000 C wf) x
        (broadcastInDim SE1 ![0] hc (select (cmpi .slt src (broadcastInDim SE ![] h0 (constantI S0 32 0#32)))
          (addi src (broadcastInDim SE ![] h0 (constantI S0 32 50000#32))) src)) (ix2 e c)
      = x (ix2 (srcRow src e) c) := by
  refine (rowGather_apply (by decide) wf x _ e c).trans ?_
  refine congrArg (fun r : Fin 50000 => x (ix2 r c)) (Fin.ext ?_)
  show min (_ : BitVec 32).toInt.toNat (50000 - 1) = min (wrapWord (src (ix1 e))).toInt.toNat (50000 - 1)
  rw [col_apply]
  rfl

end Cert.Fuse

end
-- ==== Proof.KernelHost.lean ====
/-
  The three arrays the host computes before the fuse kernel, read at an index as sums over a node's incoming edges.

  Before the region the program wraps both index arrays the way jnp wraps a negative index, gathers the node
  features' rows at the source nodes and scatter-adds them by (wrapped) destination into zeros; scatter-adds the edge
  features and the constant 1 the same way; and reshapes the counts [50000] into a column [50000, 1].  Where every
  destination word is nonnegative the wrap leaves the destinations as they are, and the three arrays are, over the
  edges into n: the sum of the source rows of the node features, the sum of the edge features, the number of edges.
-/
import proofs.«429268_j17592186044974_3_alg».proof.Proof.KernelFinal
import proofs.«429268_j17592186044974_3_alg».proof.Proof.EdgeSums
import Idealize.ShloMosaic.Lib.StableHlo.Run

set_option maxRecDepth 16384

noncomputable section

namespace Cert.KernelIdeal.HostVal

open Cert.KernelIdeal Cert.KernelIdeal.Gen Cert.KernelIdeal.Final
open Idealize.ShloMosaic Idealize.ShloMosaic.TcCoe Idealize.SL.Sem Idealize.ShloMosaic.StableHlo
open Idealize.ShloMosaic.ValueIdx Idealize.ShloMosaic.RowOps Cert.Fuse

variable (m : (ℓ : Loc nD τ sig) → Buf (Elt Ideal) ℓ)

/-- The argument arrays at their literal types. -/
abbrev nodeFeat (c : Dev nD) : FVec Ideal S50000x128 .f32 := m ((c : Thread nD τ).loc main_arg0)
abbrev edgeFeat (c : Dev nD) : FVec Ideal S800000x32 .f32 := m ((c : Thread nD τ).loc main_arg1)
abbrev srcWords (c : Dev nD) : IVec S800000 32 := m ((c : Thread nD τ).loc main_arg4)
abbrev dstWords (c : Dev nD) : IVec S800000 32 := m ((c : Thread nD τ).loc main_arg5)

/-- jnp's wrap of a negative index into an axis of 50000, on a whole index array. -/
abbrev wrapped (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- Nonnegative words are not changed by the wrap. -/
theorem wrapped_eq (x : IVec S800000 32) (h : ∀ e : Fin 800000, 0 ≤ (x (ix1 e)).toInt) : wrapped x = x := by
  funext i
  obtain ⟨e, rfl⟩ : ∃ e : Fin 800000, i = ix1 e := ⟨i 0, eq_ix1 i⟩
  exact (wrap_apply bcast_S_S800000 x e).trans (wrapWord_of_nonneg (h e))

set_option maxHeartbeats 4000000 in
/-- Window 0's array: the scatter-add of the gathered node-feature rows. -/
theorem aggNf_eq (c : Dev nD) :
    aggNf m c = Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (wrapped (dstWords m c)))
      (Host.gather gather_S50000x128_S800000x1_S800000x128_1_0_n_n_0_1_1128 (nodeFeat m c)
        (broadcastInDim S800000x1 ![0] bcast_S800000_S800000x1_0 (wrapped (srcWords m c)))) := by
  show StableHlo.after hostOps0 (fun b => m (c, b)) (Proc.devRef .tc main_v14) = _
  simp only [hostOps0]
  after_results_simp

set_option maxHeartbeats 4000000 in
/-- Window 1's array: the scatter-add of the edge features. -/
theorem aggEf_eq (c : Dev nD) :
    aggEf m c = Host.scatterAdd scatter_S50000x32_S800000x1_S800000x32_1_0_0_1
      (broadcastInDim S50000x32 ![] bcast_S_S50000x32 (constant (F := Ideal) S_ .f32 0x00000000#32))
      (broadcastInDim S800000x1 ![0] bcast_S800000_S800000x1_0 (wrapped (dstWords m c))) (edgeFeat m c) := by
  show StableHlo.after hostOps0 (fun b => m (c, b)) (Proc.devRef .tc main_v22) = _
  simp only [hostOps0]
  after_results_simp

set_option maxHeartbeats 4000000 in
/-- Window 2's array: the scatter-add of ones, reshaped to a column. -/
theorem degCol_eq (c : Dev nD) :
    degCol m c = shapeCast S50000x1 (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (wrapped (dstWords m c)))
      (broadcastInDim S800000 ![] bcast_S_S800000 (constant (F := Ideal) S_ .f32 0x3F800000#32))) shapeCasts_S50000_S50000x1 := by
  show StableHlo.after hostOps0 (fun b => m (c, b)) (Proc.devRef .tc main_v32) = _
  simp only [hostOps0]
  after_results_simp
  rfl

/-- Windows 3 and 4 hold the two prompt rows as launched. -/
theorem promptRow_eq (c : Dev nD) : promptRow m c = m ((c : Thread nD τ).loc main_arg2) := V_main_arg2 m c
theorem heteroRow_eq (c : Dev nD) : heteroRow m c = m ((c : Thread nD τ).loc main_arg3) := V_main_arg3 m c

variable (c : Dev nD) (hdst : ∀ e : Fin 800000, 0 ≤ (dstWords m c (ix1 e)).toInt)
include hdst

/-- The aggregated node features of n: the source rows summed over the edges into n. -/
theorem aggNf_apply (n : Fin 50000) (q : Fin 128) :
    aggNf m c (ix2 n q) = ∑ e ∈ edgesInto (dstWords m c) n, nodeFeat m c (ix2 (srcRow (srcWords m c) e) q) := by
  rw [aggNf_eq, wrapped_eq (dstWords m c) hdst]
  refine (rowSums_apply (C := 128) scatter_S50000x128_S800000x1_S800000x128_1_0_0_1_wf _ _ (dstWords m c) _ n q).trans ?_
  exact Finset.sum_congr rfl (fun e _ => srcRows_apply (C := 128) gather_S50000x128_S800000x1_S800000x128_1_0_n_n_0_1_1128_wf _ _
    (nodeFeat m c) (srcWords m c) e q)

/-- The aggregated edge features of n. -/
theorem aggEf_apply (n : Fin 50000) (q : Fin 32) :
    aggEf m c (ix2 n q) = ∑ e ∈ edgesInto (dstWords m c) n, edgeFeat m c (ix2 e q) := by
  rw [aggEf_eq, wrapped_eq (dstWords m c) hdst]
  exact rowSums_apply (C := 32) scatter_S50000x32_S800000x1_S800000x32_1_0_0_1_wf _ _ (dstWords m c) (edgeFeat m c) n q

/-- The in-degree of n. -/
theorem degCol_apply (n : Fin 50000) :
    degCol m c (ix2 n (0 : Fin 1)) = ∑ _e ∈ edgesInto (dstWords m c) n, (1 : EReal) := by
  rw [degCol_eq, wrapped_eq (dstWords m c) hdst]
  refine (shapeCast_apply _ shapeCasts_S50000_S50000x1 (ix2 n (0 : Fin 1)) (ix1 n) (by
    rw [Shape.rowMajor_val_one, Shape.rowMajor_val_two]
    show n.val = n.val * 1 + 0
    omega)).trans ?_
  exact count_apply scatter_S50000_S800000x1_S800000_n_0_0_1_wf _ _ _ (dstWords m c) n

end Cert.KernelIdeal.HostVal

end
-- ==== Proof.RefRead.lean ====
/-
  The reference's result read at an index.

  The reference concatenates the node features with the prompt row broadcast to every node, gathers the rows of that
  [50000, 160] table at the edges' source nodes, and scatter-adds them by destination; it scatter-adds the edge
  features and the constant 1 the same way, multiplies the counts by the hetero prompt row, and lays the three
  results side by side.  Read at row n, column j this is: over the edges into n, the sum of the source rows' node
  features (j < 128), the prompt entry summed once per edge (128 ≤ j < 160), the sum of the edge features
  (160 ≤ j < 192), the edge count times the hetero prompt entry (192 ≤ j).
-/
import proofs.«429268_j17592186044974_3_alg».proof.Proof.Gen.ReferenceIdeal.Read
import proofs.«429268_j17592186044974_3_alg».proof.Proof.EdgeSums

set_option maxRecDepth 16384

noncomputable section

namespace Cert.ReferenceIdeal.RefRead

open Cert.ReferenceIdeal Cert.ReferenceIdeal.Gen Cert.ReferenceIdeal.Read
open Idealize.ShloMosaic Idealize.ShloMosaic.TcCoe Idealize.SL.Sem
open Idealize.ShloMosaic.ValueIdx Idealize.ShloMosaic.RowOps Cert.Fuse

/-- The table [node features || prompt] left of column 128: the node features. -/
theorem table_lo (x0 : FVec Ideal S50000x128 .f32) (x2 : FVec Ideal S1x32 .f32) (r : Fin 50000) (k : Fin 160) (q : Fin 128)
    (hk : k.val = q.val) : val_main_v1 (F := Ideal) x0 x2 (ix2 r k) = x0 (ix2 r q) := by
  unfold val_main_v1
  exact concatenate_pair_apply_left (s₁ := S50000x128) (s₂ := S50000x32) (1 : Fin 2) _ _ _ (ix2 r k) rfl (ix2 r q)
    (fun b => match b with | ⟨0, _⟩ => rfl | ⟨1, _⟩ => hk.symm)

/-- From column 128 on: the prompt row, whatever the node. -/
theorem table_hi (x0 : FVec Ideal S50000x128 .f32) (x2 : FVec Ideal S1x32 .f32) (r : Fin 50000) (k : Fin 160) (q : Fin 32)
    (hk : k.val = 128 + q.val) : val_main_v1 (F := Ideal) x0 x2 (ix2 r k) = x2 (ix2 (0 : Fin 1) q) := by
  unfold val_main_v1
  refine (concatenate_pair_apply_right (s₁ := S50000x128) (s₂ := S50000x32) (1 : Fin 2) _ _ _ (ix2 r k) rfl rfl (ix2 r q)
    (fun b hb => match b with | ⟨0, _⟩ => rfl | ⟨1, _⟩ => absurd rfl hb) (by show q.val + 128 = k.val; omega)).trans ?_
  rw [val_main_v0_apply]
  exact congrArg x2 (funext fun a => match a with | ⟨0, _⟩ => rfl | ⟨1, _⟩ => rfl)

/-- The aggregated table: row n, column k is column k of the source rows summed over the edges into n. -/
theorem aggTable_apply (x0 : FVec Ideal S50000x128 .f32) (x2 : FVec Ideal S1x32 .f32) (x4 x5 : IVec S800000 32)
    (n : Fin 50000) (k : Fin 160) :
    val_main_v11 (F := Ideal) x0 x2 x4 x5 (ix2 n k)
      = ∑ e ∈ edgesInto x5 n, val_main_v1 (F := Ideal) x0 x2 (ix2 (srcRow x4 e) k) := by
  unfold val_main_v11 val_main_v9 val_main_cst val_main_v10 val_main_v8 val_main_v7 val_main_v6 val_main_v5 val_main_v4
    val_main_c_0 val_main_v3 val_main_v2 val_main_c
  refine (rowSums_apply (C := 160) scatter_S50000x160_S800000x1_S800000x160_1_0_0_1_wf _ _ x5 _ n k).trans ?_
  exact Finset.sum_congr rfl (fun e _ => srcRows_apply (C := 160) gather_S50000x160_S800000x1_S800000x160_1_0_n_n_0_1_1160_wf _ _
    (val_main_v1 (F := Ideal) x0 x2) x4 e k)

/-- The aggregated edge features. -/
theorem aggEdge_apply (x1 : FVec Ideal S800000x32 .f32) (x5 : IVec S800000 32) (n : Fin 50000) (q : Fin 32) :
    val_main_v14 (F := Ideal) x1 x5 (ix2 n q) = ∑ e ∈ edgesInto x5 n, x1 (ix2 e q) := by
  unfold val_main_v14 val_main_v12 val_main_cst_1 val_main_v13
  exact rowSums_apply (C := 32) scatter_S50000x32_S800000x1_S800000x32_1_0_0_1_wf _ _ x5 x1 n q

/-- The in-degree. -/
theorem degree_apply (x5 : IVec S800000 32) (n : Fin 50000) :
    val_main_v18 (F := Ideal) x5 (ix1 n) = ∑ _e ∈ edgesInto x5 n, (1 : EReal) := by
  unfold val_main_v18 val_main_v16 val_main_cst_3 val_main_v17 val_main_v15 val_main_cst_2
  exact count_apply scatter_S50000_S800000x1_S800000_n_0_0_1_wf _ _ _ x5 n

/-- The in-degree times the hetero prompt row. -/
theorem degHetero_apply (x3 : FVec Ideal S1x32 .f32) (x5 : IVec S800000 32) (n : Fin 50000) (q : Fin 32) :
    val_main_v22 (F := Ideal) x3 x5 (ix2 n q) = (∑ _e ∈ edgesInto x5 n, (1 : EReal)) * x3 (ix2 (0 : Fin 1) q) := by
  rw [val_main_v22_apply, val_main_v20_apply, val_main_v19_apply, val_main_v21_apply]
  show val_main_v18 (F := Ideal) x5 (idx_main_v19 (idx_main_v20 (ix2 n q))) * x3 (idx_main_v21 (ix2 n q)) = _
  rw [show idx_main_v19 (idx_main_v20 (ix2 n q)) = ix1 n from funext fun a => match a with | ⟨0, _⟩ => rfl,
    show idx_main_v21 (ix2 n q) = ix2 (0 : Fin 1) q from funext fun a => match a with | ⟨0, _⟩ => rfl | ⟨1, _⟩ => rfl,
    degree_apply]

/-- THE REFERENCE'S RESULT AT ROW n, COLUMN j. -/
theorem result_apply (x0 : FVec Ideal S50000x128 .f32) (x1 : FVec Ideal S800000x32 .f32) (x2 x3 : FVec Ideal S1x32 .f32)
    (x4 x5 : IVec S800000 32) (n : Fin 50000) (j : Fin 224) :
    val_main_v23 (F := Ideal) x0 x1 x2 x3 x4 x5 (ix2 n j) = refAt x0 x1 x2 x3 (edgesInto x5 n) (srcRow x4) j := by
  have hj := j.isLt
  unfold val_main_v23 refAt
  by_cases h₁ : j.val < 128
  · rw [dif_pos h₁]
    refine (concatenate_apply_piece (1 : Fin 2) _ _ (ix2 n j) 0 (by show (0 : Nat) < 3; decide) S50000x160 _ rfl rfl 0 rfl
      (ix2 n (⟨j.val, by omega⟩ : Fin 160)) (fun b hb => match b with | ⟨0, _⟩ => rfl | ⟨1, _⟩ => absurd rfl hb)
      (by show 0 + j.val = j.val; omega)).trans ?_
    rw [aggTable_apply]
    exact Finset.sum_congr rfl (fun e _ => table_lo x0 x2 _ _ ⟨j.val, h₁⟩ rfl)
  · rw [dif_neg h₁]
    by_cases h₂ : j.val < 160
    · rw [dif_pos h₂]
      refine (concatenate_apply_piece (1 : Fin 2) _ _ (ix2 n j) 0 (by show (0 : Nat) < 3; decide) S50000x160 _ rfl rfl 0 rfl
        (ix2 n (⟨j.val, by omega⟩ : Fin 160)) (fun b hb => match b with | ⟨0, _⟩ => rfl | ⟨1, _⟩ => absurd rfl hb)
        (by show 0 + j.val = j.val; omega)).trans ?_
      rw [aggTable_apply]
      exact Finset.sum_congr rfl (fun e _ => table_hi x0 x2 _ _ ⟨j.val - 128, by omega⟩ (by show j.val = 128 + (j.val - 128); omega))
    · rw [dif_neg h₂]
      by_cases h₃ : j.val < 192
      · rw [dif_pos h₃]
        refine (concatenate_apply_piece (1 : Fin 2) _ _ (ix2 n j) 1 (by show (1 : Nat) < 3; decide) S50000x32 _ rfl rfl 160 rfl
          (ix2 n (⟨j.val - 160, by omega⟩ : Fin 32)) (fun b hb => match b with | ⟨0, _⟩ => rfl | ⟨1, _⟩ => absurd rfl hb)
          (by show 160 + (j.val - 160) = j.val; omega)).trans ?_
        exact aggEdge_apply x1 x5 n _
      · rw [dif_neg h₃]
        refine (concatenate_apply_piece (1 : Fin 2) _ _ (ix2 n j) 2 (by show (2 : Nat) < 3; decide) S50000x32 _ rfl rfl 192 rfl
          (ix2 n (⟨j.val - 192, by omega⟩ : Fin 32)) (fun b hb => match b with | ⟨0, _⟩ => rfl | ⟨1, _⟩ => absurd rfl hb)
          (by show 192 + (j.val - 192) = j.val; omega)).trans ?_
        exact degHetero_apply x3 x5 n _

end Cert.ReferenceIdeal.RefRead

end
-- ==== Proof.Bridge.lean ====
/-
  The kernel's result array is the reference's.

  Row n, column j of the kernel's result is the fused aggregate of the three per-node sums the host computed
  (aggregated node features, aggregated edge features, in-degree) and the two prompt rows; row n, column j of the
  reference's result is the reference's row over the same edge set and the same source rows.  The two agree column
  block by column block, the prompt block by "edge count times prompt is prompt summed per edge".  The destination
  words have to be nonnegative for the two programs to mean the same edge set: the kernel's program wraps a negative
  destination word, the reference's drops it.
-/
import proofs.«429268_j17592186044974_3_alg».proof.Proof.KernelHost
import proofs.«429268_j17592186044974_3_alg».proof.Proof.RefRead

noncomputable section

namespace Cert.Bridge

open Idealize.ShloMosaic Idealize.ShloMosaic.TcCoe Idealize.SL.Sem Idealize.ShloMosaic.ValueIdx Cert.Fuse
open Cert.KernelIdeal Cert.KernelIdeal.Gen Cert.KernelIdeal.Final Cert.KernelIdeal.HostVal

theorem fused_eq_ref (m : (ℓ : Loc nD τ sig) → Buf (Elt Ideal) ℓ) (c : Dev nD)
    (hdst : ∀ e : Fin 800000, 0 ≤ (dstWords m c (ix1 e)).toInt) :
    fused m c = Cert.ReferenceIdeal.Read.val_main_v23 (F := Ideal) (nodeFeat m c) (edgeFeat m c)
      (m ((c : Thread nD τ).loc main_arg2)) (m ((c : Thread nD τ).loc main_arg3)) (srcWords m c) (dstWords m c) := by
  funext i
  obtain ⟨n, j, rfl⟩ : ∃ (n : Fin 50000) (j : Fin 224), i = ix2 n j := ⟨i 0, i 1, eq_ix2 i⟩
  rw [Cert.ReferenceIdeal.RefRead.result_apply]
  show fuseAt (aggNf m c) (aggEf m c) (degCol m c) (promptRow m c) (heteroRow m c) n j = _
  rw [promptRow_eq, heteroRow_eq]
  exact fuseAt_eq_refAt _ _ _ _ _ _ _ _ _ n j (aggNf_apply m c hdst n) (aggEf_apply m c hdst n) (degCol_apply m c hdst n)

end Cert.Bridge

end
-- ==== Proof.lean ====
/-
  The certificate of the fused graph aggregate: for every node n of a graph with 50000 nodes and 800000 edges, the
  row [ sum of the source nodes' features over the edges into n  ||  (number of edges into n) * prompt  ||
  sum of the edge features over the edges into n  ||  (number of edges into n) * hetero prompt ].

  The kernel's program computes the three per-node sums on the host (a gather and three scatter-adds) and lets a
  Pallas kernel assemble the rows, 5000 at a time; the reference concatenates the prompt to the node features before
  it gathers and sums, so its prompt block is the prompt summed once per incoming edge.  At the extended reals
  "count times p" is "p summed count times" for every p (the summands 1 are nonnegative), so the two results are
  equal entry by entry.  One thing has to be asked of the inputs: the kernel's program wraps a negative destination
  word into range where the reference's segment_sum drops it, so the statement carries the precondition that every
  destination word is nonnegative (a segment id below zero is out of the reference's own range).

  The frames of the two kernel programs are the generated frame certificates; the reference's frame is its generated
  run with the result dropped; the idealization rewrote nothing, so `preserves` is trivial.
-/
import proofs.«429268_j17592186044974_3_alg».proof.Defs
import proofs.«429268_j17592186044974_3_alg».proof.Proof.Gen.Kernel
import proofs.«429268_j17592186044974_3_alg».proof.Proof.Gen.Kernel.Skeleton
import proofs.«429268_j17592186044974_3_alg».proof.Proof.Gen.Kernel.Launch
import proofs.«429268_j17592186044974_3_alg».proof.Proof.Gen.Kernel.Points
import proofs.«429268_j17592186044974_3_alg».proof.Proof.Gen.Kernel.Frame
import proofs.«429268_j17592186044974_3_alg».proof.Proof.Gen.KernelIdeal
import proofs.«429268_j17592186044974_3_alg».proof.Proof.Gen.KernelIdeal.Skeleton
import proofs.«429268_j17592186044974_3_alg».proof.Proof.Gen.KernelIdeal.Launch
import proofs.«429268_j17592186044974_3_alg».proof.Proof.Gen.KernelIdeal.Points
import proofs.«429268_j17592186044974_3_alg».proof.Proof.Gen.KernelIdeal.Frame
import proofs.«429268_j17592186044974_3_alg».proof.Proof.Gen.ReferenceIdeal
import proofs.«429268_j17592186044974_3_alg».proof.Proof.Gen.Pre_finite_inputs
import proofs.«429268_j17592186044974_3_alg».proof.Proof.Gen.KernelIdeal.Value
import proofs.«429268_j17592186044974_3_alg».proof.Proof.Gen.ReferenceIdeal.Run
import proofs.«429268_j17592186044974_3_alg».proof.Proof.Gen.ReferenceIdeal.Read
import proofs.«429268_j17592186044974_3_alg».proof.Proof.PreRead
import proofs.«429268_j17592186044974_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the fused aggregate of the argument arrays: the kernel's result array is the fused
    aggregate of the host's three sums (the value leg's blocks, covered), the reference's result is its composed
    term, and the two are one array where the destination words are nonnegative. -/
theorem algebraic : Cert.algebraic_KernelIdeal_ReferenceIdeal := by
  intro m ρ m' ρ' hpre hagree
  refine ⟨fun c => Cert.KernelIdeal.Final.fused m c, ?_, ?_⟩
  · exact (θ_run Cert.KernelIdeal.defs _ _).mono
      (fun r h c => ⟨(h c).1.trans (Cert.KernelIdeal.Final.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v23_eq _ _ _ _ _ _).trans
      (Cert.Bridge.fused_eq_ref m c (fun e => Cert.KernelIdeal.PreRead.dst_nonneg m hpre c e)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
